-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S64x4096x16 : Shape := ⟨3, ![64, 4096, 16]⟩
abbrev S64x16x4096 : Shape := ⟨3, ![64, 16, 4096]⟩
abbrev S8 : Shape := ⟨1, ![8]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S64x4096x16 : S_.BroadcastsInDim S64x4096x16 (![] : Fin 0 → Fin S64x4096x16.rank)
  reducesTo_S64x4096x16_S_d0_1_2 : S64x4096x16.ReducesTo [0, 1, 2] S_
  bcast_S_S64x16x4096 : S_.BroadcastsInDim S64x16x4096 (![] : Fin 0 → Fin S64x16x4096.rank)
  reducesTo_S64x16x4096_S_d0_1_2 : S64x16x4096.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v15 : IVec S8 1) (main_c_5 : IVec S_ 1) : IVec S_ 1 :=
  let main_v16 : IVec S_ 1 := (fun x v => Host.reduce IntOp.andi x v reducesTo_S8_S_d0 h_S_) main_v15 main_c_5
  let main_v17 : IVec S_ 1 := andi main_v13 main_v16
  main_v17

def fn {F : FTy → Type} [FloatOps F] (main_arg0 : FVec F S8x2048x4096 .f32) (main_arg1 : FVec F S64x4096x16 .f32) (main_arg2 : FVec F S64x16x4096 .f32) (main_arg3 : IVec S8 32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S64x4096x16 .f32 := Host.absf main_arg1
  let main_cst_0 : FVec F S_ .f32 := constant S_ .f32 0x7F800000#32
  let main_v5 : FVec F S64x4096x16 .f32 := broadcastInDim S64x4096x16 ![] bcast_S_S64x4096x16 main_cst_0
  let main_v6 : IVec S64x4096x16 1 := cmpf .olt main_v4 main_v5
  let main_c_1 : IVec S_ 1 := constantI S_ 1 1#1
  let main_v7 : IVec S_ 1 := (fun x v => Host.reduce IntOp.andi x v reducesTo_S64x4096x16_S_d0_1_2 h_S_) main_v6 main_c_1
  let main_v8 : IVec S_ 1 := andi main_v3 main_v7
  let main_v9 : FVec F S64x16x4096 .f32 := Host.absf main_arg2
  let main_cst_2 : FVec F S_ .f32 := constant S_ .f32 0x7F800000#32
  let main_v10 : FVec F S64x16x4096 .f32 := broadcastInDim S64x16x4096 ![] bcast_S_S64x16x4096 main_cst_2
  let main_v11 : IVec S64x16x4096 1 := cmpf .olt main_v9 main_v10
  let main_c_3 : IVec S_ 1 := constantI S_ 1 1#1
  let main_v12 : IVec S_ 1 := (fun x v => Host.reduce IntOp.andi x v reducesTo_S64x16x4096_S_d0_1_2 h_S_) main_v11 main_c_3
  let main_v13 : IVec S_ 1 := andi main_v8 main_v12
  let main_c_4 : IVec S_ 32 := constantI S_ 32 0#32
  let main_v14 : IVec S8 32 := broadcastInDim S8 ![] bcast_S_S8 main_c_4
  let main_v15 : IVec S8 1 := cmpi .sge main_arg3 main_v14
  let main_c_5 : IVec S_ 1 := constantI S_ 1 1#1
  fn_part1 (F := F) main_v13 main_v15 main_c_5
-- ==== Kernel.lean ====
abbrev S8x2048x4096 : Shape := ⟨3, ![8, 2048, 4096]⟩
abbrev S64x4096x16 : Shape := ⟨3, ![64, 4096, 16]⟩
abbrev S64x16x4096 : Shape := ⟨3, ![64, 16, 4096]⟩
abbrev S8 : Shape := ⟨1, ![8]⟩
abbrev S_ : Shape := ⟨0, ![]⟩
abbrev S8x1 : Shape := ⟨2, ![8, 1]⟩
abbrev S8x16x4096 : Shape := ⟨3, ![8, 16, 4096]⟩
abbrev S8x4096x16 : Shape := ⟨3, ![8, 4096, 16]⟩
abbrev S1x256x4096 : Shape := ⟨3, ![1, 256, 4096]⟩
abbrev S1x16x4096 : Shape := ⟨3, ![1, 16, 4096]⟩
abbrev S256x4096 : Shape := ⟨2, ![256, 4096]⟩
abbrev S16x4096 : Shape := ⟨2, ![16, 4096]⟩
abbrev S256x16 : Shape := ⟨2, ![256, 16]⟩

abbrev nBuf : Space → Nat
  | .hbm => 32
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S64x4096x16, .f32⟩
  | .hbm, ⟨2, _⟩ => ⟨S64x16x4096, .f32⟩
  | .hbm, ⟨3, _⟩ => ⟨S8, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i1⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S8x1, .i32⟩
  | .hbm, ⟨20, _⟩ => ⟨S8x16x4096, .f32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S8x1, .i32⟩
  | .hbm, ⟨29, _⟩ => ⟨S8x4096x16, .f32⟩
  | .hbm, ⟨30, _⟩ => ⟨S8x16x4096, .f32⟩
  | .hbm, ⟨31, _⟩ => ⟨S8x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x16x4096, .f32⟩
  | .local _ .vmem, ⟨3, _⟩ => ⟨S1x16x4096, .f32⟩
  | .local _ .vmem, ⟨4, _⟩ => ⟨S1x16x4096, .f32⟩
  | .local _ .vmem, ⟨5, _⟩ => ⟨S1x16x4096, .f32⟩
  | .local _ .vmem, ⟨6, _⟩ => ⟨S1x256x4096, .f32⟩
  | .local _ .vmem, ⟨7, _⟩ => ⟨S1x256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_c_2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8 : S_.BroadcastsInDim S8 (![] : Fin 0 → Fin S8.rank)
  bcast_S8_S8x1_0 : S8.BroadcastsInDim S8x1 (![0] : Fin 1 → Fin S8x1.rank)
  transposes_S8x4096x16_S8x16x4096_0_2_1 : S8x4096x16.Transposes [0, 2, 1] S8x16x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x16x4096_S1x16x4096_0_0_0 : ∀ a, (![0, 0, 0] : Fin 3 → Nat) a + S1x16x4096.size a ≤ S1x16x4096.size a
  h_S1x16x4096 : 0 < S1x16x4096.numel
  shapeCasts_S1x16x4096_S16x4096 : S1x16x4096.ShapeCasts S16x4096
  shapeCasts_S256x4096_S1x256x4096 : S256x4096.ShapeCasts S1x256x4096
  gather_S64x16x4096_S8x1_S8x16x4096_12_0_n_n_0_1_1164096_wf : GatherDims.WF S64x16x4096 S8x1 S8x16x4096 [1, 2] [0] [] [0] [] 1 ![1, 16, 4096]
  gather_S64x4096x16_S8x1_S8x4096x16_12_0_n_n_0_1_1409616_wf : GatherDims.WF S64x4096x16 S8x1 S8x4096x16 [1, 2] [0] [] [0] [] 1 ![1, 4096, 16]
  dot_S256x4096_S16x4096_S256x16_1_1_0_0_n_n_wf : DotDims.WF S256x4096 S16x4096 S256x16 [1] [1] [0] [0] [] []
  dot_S256x16_S16x4096_S256x4096_1_0_0_1_n_n_wf : DotDims.WF S256x16 S16x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x2048x4096.size a
  hwx0_0 : ∀ i : grid0.Coords, EltTy.bits .f32 = 32 ∨ (Rect.block (s := S8x2048x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x4096.size a ≤ S8x16x4096.size a
  hwx0_1 : ∀ i : grid0.Coords, EltTy.bits .f32 = 32 ∨ (Rect.block (s := S8x16x4096) S1x16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x4096.size a ≤ S8x16x4096.size a
  hwx0_2 : ∀ i : grid0.Coords, EltTy.bits .f32 = 32 ∨ (Rect.block (s := S8x16x4096) S1x16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x2048x4096.size a
  hwx0_3 : ∀ i : grid0.Coords, EltTy.bits .f32 = 32 ∨ (Rect.block (s := S8x2048x4096) S1x256x4096.size (cc0_transform_3 i) (hinb0_3 i)).WholeWords (EltTy.packing .f32)

variable [Facts₀]

def gather_S64x16x4096_S8x1_S8x16x4096_12_0_n_n_0_1_1164096 : GatherDims S64x16x4096 S8x1 S8x16x4096 where
  offsetDims := [1, 2]
  collapsedSliceDims := [0]
  operandBatchingDims := []
  startIndicesBatchingDims := []
  startIndexMap := [0]
  indexVectorDim := 1
  sliceSizes := ![1, 16, 4096]
  wf := gather_S64x16x4096_S8x1_S8x16x4096_12_0_n_n_0_1_1164096_wf
def gather_S64x4096x16_S8x1_S8x4096x16_12_0_n_n_0_1_1409616 : GatherDims S64x4096x16 S8x1 S8x4096x16 where
  offsetDims := [1, 2]
  collapsedSliceDims := [0]
  operandBatchingDims := []
  startIndicesBatchingDims := []
  startIndexMap := [0]
  indexVectorDim := 1
  sliceSizes := ![1, 4096, 16]
  wf := gather_S64x4096x16_S8x1_S8x4096x16_12_0_n_n_0_1_1409616_wf
def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x16x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x16x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S64x4096x16 : Shape := ⟨3, ![64, 4096, 16]⟩
abbrev S64x16x4096 : Shape := ⟨3, ![64, 16, 4096]⟩
abbrev S8 : Shape := ⟨1, ![8]⟩
abbrev S_ : Shape := ⟨0, ![]⟩
abbrev S8x1 : Shape := ⟨2, ![8, 1]⟩
abbrev S8x16x4096 : Shape := ⟨3, ![8, 16, 4096]⟩
abbrev S8x4096x16 : Shape := ⟨3, ![8, 4096, 16]⟩
abbrev S8x2048x16 : Shape := ⟨3, ![8, 2048, 16]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S64x4096x16, .f32⟩
  | .hbm, ⟨2, _⟩ => ⟨S64x16x4096, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i1⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8, .i32⟩
  | .hbm, ⟨11, _⟩ => ⟨S8x1, .i32⟩
  | .hbm, ⟨12, _⟩ => ⟨S8x16x4096, .f32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S8x1, .i32⟩
  | .hbm, ⟨21, _⟩ => ⟨S8x4096x16, .f32⟩
  | .hbm, ⟨22, _⟩ => ⟨S8x2048x16, .f32⟩
  | .hbm, ⟨23, _⟩ => ⟨S8x2048x4096, .f32⟩
  | .hbm, ⟨24, _⟩ => ⟨S_, .f32⟩
  | .hbm, ⟨25, _⟩ => ⟨S8x2048x4096, .f32⟩
  | .hbm, ⟨26, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  bcast_S_S8x2048x4096 : S_.BroadcastsInDim S8x2048x4096 (![] : Fin 0 → Fin S8x2048x4096.rank)
  gather_S64x16x4096_S8x1_S8x16x4096_12_0_n_n_0_1_1164096_wf : GatherDims.WF S64x16x4096 S8x1 S8x16x4096 [1, 2] [0] [] [0] [] 1 ![1, 16, 4096]
  gather_S64x4096x16_S8x1_S8x4096x16_12_0_n_n_0_1_1409616_wf : GatherDims.WF S64x4096x16 S8x1 S8x4096x16 [1, 2] [0] [] [0] [] 1 ![1, 4096, 16]
  dot_S8x2048x4096_S8x16x4096_S8x2048x16_2_2_1_1_0_0_wf : DotDims.WF S8x2048x4096 S8x16x4096 S8x2048x16 [2] [2] [1] [1] [0] [0]
  dot_S8x2048x16_S8x4096x16_S8x2048x4096_2_2_1_1_0_0_wf : DotDims.WF S8x2048x16 S8x4096x16 S8x2048x4096 [2] [2] [1] [1] [0] [0]

variable [Facts₀]

def gather_S64x16x4096_S8x1_S8x16x4096_12_0_n_n_0_1_1164096 : GatherDims S64x16x4096 S8x1 S8x16x4096 where
  offsetDims := [1, 2]
  collapsedSliceDims := [0]
  operandBatchingDims := []
  startIndicesBatchingDims := []
  startIndexMap := [0]
  indexVectorDim := 1
  sliceSizes := ![1, 16, 4096]
  wf := gather_S64x16x4096_S8x1_S8x16x4096_12_0_n_n_0_1_1164096_wf
def gather_S64x4096x16_S8x1_S8x4096x16_12_0_n_n_0_1_1409616 : GatherDims S64x4096x16 S8x1 S8x4096x16 where
  offsetDims := [1, 2]
  collapsedSliceDims := [0]
  operandBatchingDims := []
  startIndicesBatchingDims := []
  startIndexMap := [0]
  indexVectorDim := 1
  sliceSizes := ![1, 4096, 16]
  wf := gather_S64x4096x16_S8x1_S8x4096x16_12_0_n_n_0_1_1409616_wf
def dot_S8x2048x4096_S8x16x4096_S8x2048x16_2_2_1_1_0_0 : DotDims S8x2048x4096 S8x16x4096 S8x2048x16 where
  lhsContracting := [2]
  rhsContracting := [2]
  lhsNonContracting := [1]
  rhsNonContracting := [1]
  lhsBatch := [0]
  rhsBatch := [0]
  wf := dot_S8x2048x4096_S8x16x4096_S8x2048x16_2_2_1_1_0_0_wf
def dot_S8x2048x16_S8x4096x16_S8x2048x4096_2_2_1_1_0_0 : DotDims S8x2048x16 S8x4096x16 S8x2048x4096 where
  lhsContracting := [2]
  rhsContracting := [2]
  lhsNonContracting := [1]
  rhsNonContracting := [1]
  lhsBatch := [0]
  rhsBatch := [0]
  wf := dot_S8x2048x16_S8x4096x16_S8x2048x4096_2_2_1_1_0_0_wf

class Facts : Prop extends Facts₀ where

variable [Facts]
-- ==== Proof.LoraSpec.lean ====
/-
  The function both programs compute, and the index arithmetic that selects an adapter.

  For batch element `b` the adapter used is row `rowOf (ids b)`: the id read as a signed integer and clamped into
  `[0, 63]`. With `Bq = B[row]` (16 × 4096) and `Aq = A[row]` (4096 × 16) the result is
      out[b, n, o] = Σ_r (Σ_k x[b, n, k] · Bq[r, k]) · Aq[o, r],
  the inner sum over the 4096 input features first, the outer over the 16 ranks: both programs nest the sums this way, so
  no law of the extended reals beyond `y · 1 = y` is used anywhere.

  Two index chains lead to the row. One program reads the id numpy-style (a negative id counts from the end: `id + 64`)
  and the gather then clamps; the other first clips the id into `[0, 63]`, after which wrapping and clamping change nothing.
  On a non-negative id both give `min id 63`; on a negative id they differ, which is why non-negative ids are assumed.

-/
import Idealize.ShloMosaic.Lib.ValueIdx
import Idealize.ShloMosaic.Lib.Affine
import Idealize.ShloMosaic.PureOps.Ideal

noncomputable section

open scoped BigOperators

namespace Cert.Lora

open Idealize.ShloMosaic Idealize.ShloMosaic.ValueIdx

/-! ## The adapter row of an id -/

/-- The table row an id selects: the id as a signed integer, clamped into `[0, 63]`. -/
def rowOf (w : BitVec 32) : Fin 64 := ⟨min w.toInt.toNat 63, by omega⟩

theorem toInt_zero : (0#32 : BitVec 32).toInt = 0 := by decide
theorem toInt_sixtyThree : (63#32 : BitVec 32).toInt = 63 := by decide

/-- Numpy's wrap of a negative index leaves a non-negative id alone. -/
theorem wrap_of_nonneg (w : BitVec 32) (h : 0 ≤ w.toInt) :
    Scalar.select (IntOp.cmpi .slt w 0#32) (IntOp.addi w 64#32) w = w := by
  have hc : ¬ IntOp.cmpi .slt w 0#32 = 1#1 := by
    rw [IntOp.cmpi_slt, toInt_zero]; omega
  exact if_neg hc

/-- Clipping a non-negative id into `[0, 63]`, then wrapping, selects the row of the id itself. -/
theorem rowOf_clip (w : BitVec 32) (h : 0 ≤ w.toInt) :
    rowOf (Scalar.select (IntOp.cmpi .slt (IntOp.minsi 63#32 (IntOp.maxsi 0#32 w)) 0#32)
        (IntOp.addi (IntOp.minsi 63#32 (IntOp.maxsi 0#32 w)) 64#32) (IntOp.minsi 63#32 (IntOp.maxsi 0#32 w))) = rowOf w := by
  have hmax : IntOp.maxsi 0#32 w = w := by
    unfold IntOp.maxsi
    rw [if_neg]
    rw [Bool.not_eq_true, ← Bool.not_eq_true, BitVec.slt_iff_toInt_lt, toInt_zero]; omega
  rw [hmax]
  unfold IntOp.minsi
  by_cases h63 : (63#32 : BitVec 32).slt w = true
  · rw [if_pos h63, wrap_of_nonneg _ (by rw [toInt_sixtyThree]; omega)]
    rw [BitVec.slt_iff_toInt_lt, toInt_sixtyThree] at h63
    apply Fin.ext
    show min (63#32 : BitVec 32).toInt.toNat 63 = min w.toInt.toNat 63
    rw [toInt_sixtyThree]; omega
  · rw [if_neg h63, wrap_of_nonneg _ h]

/-! ## The specification -/

/-- One entry of the result: the adapter's two small matrices applied to a token, ranks outermost. -/
def loraAt (x : FVec Ideal ⟨3, ![8, 2048, 4096]⟩ .f32) (A : FVec Ideal ⟨3, ![64, 4096, 16]⟩ .f32)
    (B : FVec Ideal ⟨3, ![64, 16, 4096]⟩ .f32) (ids : IVec ⟨1, ![8]⟩ 32) (b : Fin 8) (n : Fin 2048) (o : Fin 4096) : EReal :=
  ∑ r : Fin 16, (∑ k : Fin 4096, x (ix3 b n k) * B (ix3 (rowOf (ids (ix1 b))) r k)) * A (ix3 (rowOf (ids (ix1 b))) o r)

/-- The whole result array. -/
def lora (x : FVec Ideal ⟨3, ![8, 2048, 4096]⟩ .f32) (A : FVec Ideal ⟨3, ![64, 4096, 16]⟩ .f32)
    (B : FVec Ideal ⟨3, ![64, 16, 4096]⟩ .f32) (ids : IVec ⟨1, ![8]⟩ 32) : FVec Ideal ⟨3, ![8, 2048, 4096]⟩ .f32 :=
  fun i => loraAt x A B ids (i 0) (i 1) (i 2)

/-- The array at an index given by its coordinates. -/
theorem lora_apply (x : FVec Ideal ⟨3, ![8, 2048, 4096]⟩ .f32) (A : FVec Ideal ⟨3, ![64, 4096, 16]⟩ .f32)
    (B : FVec Ideal ⟨3, ![64, 16, 4096]⟩ .f32) (ids : IVec ⟨1, ![8]⟩ 32) (b : Fin 8) (n : Fin 2048) (o : Fin 4096) :
    lora x A B ids (ix3 b n o) = loraAt x A B ids b n o := rfl

end Cert.Lora

end
-- ==== Proof.LibGatherRows.lean ====
/-
  `table[idx]` for a rank-3 table, read at an index.

  jnp's `table[idx]` over a table `[N, R, C]` and a vector of `n` start indices prints as a `stablehlo.gather` whose
  start indices are kept as a column `[n, 1]`: operand axis 0 is the indexed one and is collapsed, axes 1 and 2 are
  copied whole (offset axes 1 and 2 of the result `[n, R, C]`), and the index vector lies on axis 1 of the column.
  `rowsDims` is that record of dimension numbers (a printed record with these numbers is equal to it by `rfl`), and
  `gather_rows_apply` reads the gather at `(p, r, c)`: the table at `(row, r, c)`, where `row` is start index `p`
  read as a signed integer and clamped into `[0, N − 1]` as StableHLO's gather clamps every start index.
-/
import Idealize.ShloMosaic.Lib.ValueIdx

namespace Idealize.ShloMosaic.GatherRows

open Idealize.ShloMosaic Idealize.ShloMosaic.ValueIdx

variable {α : Type}

/-- The dimension numbers of `table[idx]` for a table `[N, R, C]` and `n` start indices kept as a column `[n, 1]`:
    axis 0 is indexed and collapsed, the other two are copied whole. -/
abbrev rowsDims (N R C n : Nat)
    (wf : GatherDims.WF ⟨3, ![N, R, C]⟩ ⟨2, ![n, 1]⟩ ⟨3, ![n, R, C]⟩ [1, 2] [0] [] [0] [] 1 ![1, R, C]) :
    GatherDims ⟨3, ![N, R, C]⟩ ⟨2, ![n, 1]⟩ ⟨3, ![n, R, C]⟩ where
  offsetDims := [1, 2]
  collapsedSliceDims := [0]
  operandBatchingDims := []
  startIndicesBatchingDims := []
  startIndexMap := [0]
  indexVectorDim := 1
  sliceSizes := ![1, R, C]
  wf := wf

/-- Of a rank-3 result whose axes 1 and 2 are the copied ones, the copied axis that reads operand axis 1 is axis 1 … -/
theorem copied_axis1 : ∀ h, ([1, 2] : List (Fin 3))[List.idxOf (1 : Fin 3)
    ((List.finRange 3).filter (fun a : Fin 3 => decide (a ∉ ([0] ++ [] : List (Fin 3)))))]'h = 1 := by decide
/-- … and the one that reads operand axis 2 is axis 2. -/
theorem copied_axis2 : ∀ h, ([1, 2] : List (Fin 3))[List.idxOf (2 : Fin 3)
    ((List.finRange 3).filter (fun a : Fin 3 => decide (a ∉ ([0] ++ [] : List (Fin 3)))))]'h = 2 := by decide

/-- On the indexed axis the operand coordinate is the clamped start index. -/
theorem rows_coord0 {N R C n w : Nat}
    (wf : GatherDims.WF ⟨3, ![N, R, C]⟩ ⟨2, ![n, 1]⟩ ⟨3, ![n, R, C]⟩ [1, 2] [0] [] [0] [] 1 ![1, R, C])
    (idx : IVec ⟨2, ![n, 1]⟩ w) (p : Fin n) (r : Fin R) (c : Fin C) :
    ((rowsDims N R C n wf).operandIdx (ix3 p r c) idx 0).val = min (idx (ix2 p (0 : Fin 1))).toInt.toNat (N - 1) := by
  show (rowsDims N R C n wf).start (ix3 p r c) idx 0 + (rowsDims N R C n wf).batchCoord (ix3 p r c) 0
    + (rowsDims N R C n wf).offCoord (ix3 p r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (rowsDims N R C n wf).startIndexMap from List.mem_singleton.mpr rfl)]
  have hsi : (rowsDims N R C n wf).siIdx (ix3 p r c) ⟨List.idxOf (0 : Fin 3) (rowsDims N R C n wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

/-- On the first copied axis the operand coordinate is the result's. -/
theorem rows_coord1 {N R C n w : Nat}
    (wf : GatherDims.WF ⟨3, ![N, R, C]⟩ ⟨2, ![n, 1]⟩ ⟨3, ![n, R, C]⟩ [1, 2] [0] [] [0] [] 1 ![1, R, C])
    (idx : IVec ⟨2, ![n, 1]⟩ w) (p : Fin n) (r : Fin R) (c : Fin C) :
    ((rowsDims N R C n wf).operandIdx (ix3 p r c) idx 1).val = r.val := by
  show (rowsDims N R C n wf).start (ix3 p r c) idx 1 + (rowsDims N R C n wf).batchCoord (ix3 p r c) 1
    + (rowsDims N R C n wf).offCoord (ix3 p r c) 1 = _
  rw [GatherDims.batchCoord_eq_zero _ _ _ List.not_mem_nil]
  unfold GatherDims.start GatherDims.offCoord
  rw [dif_neg (show ¬ (1 : Fin 3) ∈ (rowsDims N R C n wf).startIndexMap from
      (by decide : ¬ (1 : Fin 3) ∈ ([0] : List (Fin 3)))),
    dif_pos (show (1 : Fin 3) ∈ (rowsDims N R C n wf).sKept from
      (GatherDims.mem_sKept _ _).mpr ⟨(by decide : ¬ (1 : Fin 3) ∈ ([0] : List (Fin 3))), List.not_mem_nil⟩)]
  simp only [Nat.zero_add]
  exact congrArg (fun a => (ix3 p r c a).val) (copied_axis1 _)

/-- On the second copied axis likewise. -/
theorem rows_coord2 {N R C n w : Nat}
    (wf : GatherDims.WF ⟨3, ![N, R, C]⟩ ⟨2, ![n, 1]⟩ ⟨3, ![n, R, C]⟩ [1, 2] [0] [] [0] [] 1 ![1, R, C])
    (idx : IVec ⟨2, ![n, 1]⟩ w) (p : Fin n) (r : Fin R) (c : Fin C) :
    ((rowsDims N R C n wf).operandIdx (ix3 p r c) idx 2).val = c.val := by
  show (rowsDims N R C n wf).start (ix3 p r c) idx 2 + (rowsDims N R C n wf).batchCoord (ix3 p r c) 2
    + (rowsDims N R C n wf).offCoord (ix3 p r c) 2 = _
  rw [GatherDims.batchCoord_eq_zero _ _ _ List.not_mem_nil]
  unfold GatherDims.start GatherDims.offCoord
  rw [dif_neg (show ¬ (2 : Fin 3) ∈ (rowsDims N R C n wf).startIndexMap from
      (by decide : ¬ (2 : Fin 3) ∈ ([0] : List (Fin 3)))),
    dif_pos (show (2 : Fin 3) ∈ (rowsDims N R C n wf).sKept from
      (GatherDims.mem_sKept _ _).mpr ⟨(by decide : ¬ (2 : Fin 3) ∈ ([0] : List (Fin 3))), List.not_mem_nil⟩)]
  simp only [Nat.zero_add]
  exact congrArg (fun a => (ix3 p r c a).val) (copied_axis2 _)

/-- Entry `(p, r, c)` of the gathered rows is entry `(r, c)` of the table's row at start index `p`, read signed and
    clamped into the table. -/
theorem gather_rows_apply {N R C n w : Nat} (hN : 0 < N)
    (wf : GatherDims.WF ⟨3, ![N, R, C]⟩ ⟨2, ![n, 1]⟩ ⟨3, ![n, R, C]⟩ [1, 2] [0] [] [0] [] 1 ![1, R, C])
    (x : (⟨3, ![N, R, C]⟩ : Shape).Idx → α) (idx : IVec ⟨2, ![n, 1]⟩ w) (p : Fin n) (r : Fin R) (c : Fin C) :
    Host.gather (rowsDims N R C n wf) x idx (ix3 p r c)
      = x (ix3 ⟨min (idx (ix2 p (0 : Fin 1))).toInt.toNat (N - 1), by omega⟩ r c) := by
  unfold Host.gather
  congr 1
  funext a
  refine Fin.ext ?_
  match a with
  | ⟨0, _⟩ => exact rows_coord0 wf idx p r c
  | ⟨1, _⟩ => exact rows_coord1 wf idx p r c
  | ⟨2, _⟩ => exact rows_coord2 wf idx p r c

end Idealize.ShloMosaic.GatherRows
-- ==== Proof.LoraWindows.lean ====
/-
  The two adapter arrays the kernel's windows stage, as the region finds them.

  Before the region the host clips every id into `[0, 63]`, wraps it numpy-style (which a clipped id never needs),
  gathers the adapter's rows of `B` (window 1's array, `[8, 16, 4096]`), gathers the adapter's rows of `A` and
  swaps their last two axes (window 2's array, `[8, 16, 4096]` again). On a non-negative id the row both gathers read
  is `rowOf id`, so
      window 1's array at (b, r, k) = B[rowOf id_b, r, k],     window 2's array at (b, r, o) = A[rowOf id_b, o, r].
-/
import proofs.«413199_j44933947850967_3_alg».proof.Proof.Gen.KernelIdeal.Frame
import proofs.«413199_j44933947850967_3_alg».proof.Proof.LoraSpec
import proofs.«413199_j44933947850967_3_alg».proof.Proof.LibGatherRows
import Idealize.ShloMosaic.Lib.StableHlo.Run
import Idealize.ShloMosaic.Lib.Pipeline.Value

noncomputable section

namespace Cert.Lora.Win

open Cert.KernelIdeal Cert.KernelIdeal.Gen Idealize.ShloMosaic Idealize.ShloMosaic.TcCoe Idealize.SL.Sem
open Idealize.ShloMosaic.StableHlo Idealize.ShloMosaic.ValueIdx Idealize.ShloMosaic.GatherRows Cert.Lora

variable (m : (ℓ : Loc nD τ sig) → Buf (Elt Ideal) ℓ)

/-! ## The argument arrays, at their literal types -/

abbrev argX (c : Dev nD) : FVec Ideal S8x2048x4096 .f32 := m ((c : Thread nD τ).loc main_arg0)
abbrev argA (c : Dev nD) : FVec Ideal S64x4096x16 .f32 := m ((c : Thread nD τ).loc main_arg1)
abbrev argB (c : Dev nD) : FVec Ideal S64x16x4096 .f32 := m ((c : Thread nD τ).loc main_arg2)
abbrev argIds (c : Dev nD) : IVec S8 32 := m ((c : Thread nD τ).loc main_arg3)

/-! ## The start indices the host hands the two gathers -/

/-- The ids clipped into `[0, 63]`. -/
def clipIds (ids : IVec S8 32) : IVec S8 32 :=
  minsi (broadcastInDim S8 ![] bcast_S_S8 (constantI S_ 32 63#32))
    (maxsi (broadcastInDim S8 ![] bcast_S_S8 (constantI S_ 32 0#32)) ids)

/-- The clipped ids, wrapped numpy-style, as the column of start indices. -/
def startCol (ids : IVec S8 32) : IVec S8x1 32 :=
  broadcastInDim S8x1 ![0] bcast_S8_S8x1_0
    (select (cmpi .slt (clipIds ids) (broadcastInDim S8 ![] bcast_S_S8 (constantI S_ 32 0#32)))
      (addi (clipIds ids) (broadcastInDim S8 ![] bcast_S_S8 (constantI S_ 32 64#32))) (clipIds ids))

/-- The start index of batch element `b`, as a word. -/
theorem startCol_apply (ids : IVec S8 32) (b : Fin 8) :
    startCol ids (ix2 b (0 : Fin 1))
      = Scalar.select (IntOp.cmpi .slt (IntOp.minsi 63#32 (IntOp.maxsi 0#32 (ids (ix1 b)))) 0#32)
          (IntOp.addi (IntOp.minsi 63#32 (IntOp.maxsi 0#32 (ids (ix1 b)))) 64#32)
          (IntOp.minsi 63#32 (IntOp.maxsi 0#32 (ids (ix1 b)))) :=
  (broadcastInDim_apply _ bcast_S8_S8x1_0 _ (ix2 b (0 : Fin 1)) (ix1 b) (fun a => match a with
    | ⟨0, _⟩ => by show b.val = if (8 : Nat) = 1 then 0 else b.val; rw [if_neg (by decide)])).trans rfl

/-! ## Window 1's array: the gathered rows of `B` -/

set_option maxHeartbeats 4000000 in
/-- What the host operations before the region leave in window 1's array. -/
theorem V_main_v7 (c : Dev nD) :
    (V m c main_v7 : S8x16x4096.Idx → EReal)
      = Host.gather gather_S64x16x4096_S8x1_S8x16x4096_12_0_n_n_0_1_1164096 (argB m c) (startCol (argIds m c)) := by
  dsimp only [V]
  simp only [hostOps0, hostOps0_1, hostOps0_2, List.flatten_cons, List.flatten_nil, List.append_nil, List.cons_append,
    List.nil_append]
  after_results
  rfl

/-- Window 1's array at `(b, r, k)`, on non-negative ids. -/
theorem winB_apply (c : Dev nD) (h : ∀ b : Fin 8, 0 ≤ (argIds m c (ix1 b)).toInt) (b : Fin 8) (r : Fin 16) (k : Fin 4096) :
    (V m c main_v7 : S8x16x4096.Idx → EReal) (ix3 b r k) = argB m c (ix3 (rowOf (argIds m c (ix1 b))) r k) := by
  refine (congrFun (V_main_v7 m c) (ix3 b r k)).trans ?_
  refine (gather_rows_apply (by decide) gather_S64x16x4096_S8x1_S8x16x4096_12_0_n_n_0_1_1164096_wf (argB m c)
    (startCol (argIds m c)) b r k).trans ?_
  simp only [startCol_apply]
  exact congrArg (fun row => argB m c (ix3 row r k)) (rowOf_clip _ (h b))

/-! ## Window 2's array: the gathered rows of `A`, last two axes swapped -/

set_option maxHeartbeats 4000000 in
/-- What the host operations before the region leave in window 2's array. -/
theorem V_main_v15 (c : Dev nD) :
    (V m c main_v15 : S8x16x4096.Idx → EReal)
      = transpose S8x16x4096 [0, 2, 1]
          (Host.gather gather_S64x4096x16_S8x1_S8x4096x16_12_0_n_n_0_1_1409616 (argA m c) (startCol (argIds m c)))
          transposes_S8x4096x16_S8x16x4096_0_2_1 := by
  dsimp only [V]
  simp only [hostOps0, hostOps0_1, hostOps0_2, List.flatten_cons, List.flatten_nil, List.append_nil, List.cons_append,
    List.nil_append]
  after_results
  rfl

/-- Window 2's array at `(b, r, o)`, on non-negative ids. -/
theorem winA_apply (c : Dev nD) (h : ∀ b : Fin 8, 0 ≤ (argIds m c (ix1 b)).toInt) (b : Fin 8) (r : Fin 16) (o : Fin 4096) :
    (V m c main_v15 : S8x16x4096.Idx → EReal) (ix3 b r o) = argA m c (ix3 (rowOf (argIds m c (ix1 b))) o r) := by
  refine (congrFun (V_main_v15 m c) (ix3 b r o)).trans ?_
  refine (transpose_apply [0, 2, 1] _ transposes_S8x4096x16_S8x16x4096_0_2_1 (ix3 b r o) (ix3 b o r) (fun a => match a with
    | ⟨0, _⟩ => rfl
    | ⟨1, _⟩ => rfl
    | ⟨2, _⟩ => rfl)).trans ?_
  refine (gather_rows_apply (by decide) gather_S64x4096x16_S8x1_S8x4096x16_12_0_n_n_0_1_1409616_wf (argA m c)
    (startCol (argIds m c)) b o r).trans ?_
  simp only [startCol_apply]
  exact congrArg (fun row => argA m c (ix3 row o r)) (rowOf_clip _ (h b))

end Cert.Lora.Win

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.LoraBlock.lean ====
/-
  What the kernel body computes from its three loaded blocks, entry by entry.

  The body views the token tile `[1, 256, 4096]` as a `256 × 4096` matrix `X`, the two adapter blocks `[1, 16, 4096]`
  as `16 × 4096` matrices `Bq` and `At`, forms `Y = X · Bqᵀ` (contracting the 4096 input features, into a zero
  accumulator), then `Y · At` (contracting the 16 ranks, into a zero accumulator), and stores that as a
  `[1, 256, 4096]` block. At the ideal values each product is the plain sum of products, so entry `(p, q)` is
      Σ_r (Σ_k X[p, k] · Bq[r, k]) · At[r, q].
-/
import proofs.«413199_j44933947850967_3_alg».proof.Proof.Gen.KernelIdeal.Skeleton
import proofs.«413199_j44933947850967_3_alg».proof.Proof.LibRowCasts
import Idealize.ShloMosaic.PureOps.Ideal.Laws
import Idealize.ShloMosaic.Lib.ValueIdx

noncomputable section

open scoped BigOperators

namespace Cert.Lora.Block

open Cert.KernelIdeal Cert.KernelIdeal.Gen Idealize.ShloMosaic Idealize.ShloMosaic.ValueIdx Idealize.ShloMosaic.RowCasts

/-! ## The first product: tokens against the rows of `Bq` -/

theorem lhs_low_0 (i : S256x16.Idx) (q : dot_S256x4096_S16x4096_S256x16_1_1_0_0_n_n.contr.Idx) :
    (dot_S256x4096_S16x4096_S256x16_1_1_0_0_n_n.lhsIdx i q 0).val = (i 0).val := by
  unfold DotDims.lhsIdx
  rw [dif_neg (show ¬(0 : Fin S256x4096.rank) ∈ dot_S256x4096_S16x4096_S256x16_1_1_0_0_n_n.lhsBatch by decide),
    dif_pos (show (0 : Fin S256x4096.rank) ∈ dot_S256x4096_S16x4096_S256x16_1_1_0_0_n_n.lhsNonContracting by decide)]
  rfl
theorem lhs_low_1 (i : S256x16.Idx) (q : dot_S256x4096_S16x4096_S256x16_1_1_0_0_n_n.contr.Idx) :
    (dot_S256x4096_S16x4096_S256x16_1_1_0_0_n_n.lhsIdx i q 1).val = (q ⟨0, by decide⟩).val :=
  dot_S256x4096_S16x4096_S256x16_1_1_0_0_n_n.lhsIdx_val_of_single rfl i q
theorem rhs_low_0 (i : S256x16.Idx) (q : dot_S256x4096_S16x4096_S256x16_1_1_0_0_n_n.contr.Idx) :
    (dot_S256x4096_S16x4096_S256x16_1_1_0_0_n_n.rhsIdx i q 0).val = (i 1).val := by
  unfold DotDims.rhsIdx
  rw [dif_neg (show ¬(0 : Fin S16x4096.rank) ∈ dot_S256x4096_S16x4096_S256x16_1_1_0_0_n_n.rhsBatch by decide),
    dif_pos (show (0 : Fin S16x4096.rank) ∈ dot_S256x4096_S16x4096_S256x16_1_1_0_0_n_n.rhsNonContracting by decide)]
  rfl
theorem rhs_low_1 (i : S256x16.Idx) (q : dot_S256x4096_S16x4096_S256x16_1_1_0_0_n_n.contr.Idx) :
    (dot_S256x4096_S16x4096_S256x16_1_1_0_0_n_n.rhsIdx i q 1).val = (q ⟨0, by decide⟩).val :=
  dot_S256x4096_S16x4096_S256x16_1_1_0_0_n_n.rhsIdx_val_of_single rfl i q

/-- `Y[p, r] = Σ_k X[p, k] · Bq[r, k]`. -/
theorem lowRank_apply (X : FVec Ideal S256x4096 .f32) (Bq : FVec Ideal S16x4096 .f32) (p : Fin 256) (r : Fin 16) :
    matmul (F := Ideal) dot_S256x4096_S16x4096_S256x16_1_1_0_0_n_n none X Bq (constant (F := Ideal) S256x16 .f32 0x00000000#32) (ix2 p r)
      = ∑ k : Fin 4096, X (ix2 p k) * Bq (ix2 r k) := by
  simp only [matmul]
  rw [Ideal.matmul_constant_zero_apply,
    ← Equiv.sum_comp (contrEquiv1 dot_S256x4096_S16x4096_S256x16_1_1_0_0_n_n 4096 rfl rfl).symm]
  refine Finset.sum_congr rfl fun k _ => ?_
  have hk := contrEquiv1_symm_val dot_S256x4096_S16x4096_S256x16_1_1_0_0_n_n 4096 rfl rfl k
  have el : dot_S256x4096_S16x4096_S256x16_1_1_0_0_n_n.lhsIdx (ix2 p r)
      ((contrEquiv1 dot_S256x4096_S16x4096_S256x16_1_1_0_0_n_n 4096 rfl rfl).symm k) = ix2 p k := funext fun a => Fin.ext (by
    match a with
    | ⟨0, _⟩ => exact lhs_low_0 _ _
    | ⟨1, _⟩ => exact (lhs_low_1 _ _).trans hk)
  have er : dot_S256x4096_S16x4096_S256x16_1_1_0_0_n_n.rhsIdx (ix2 p r)
      ((contrEquiv1 dot_S256x4096_S16x4096_S256x16_1_1_0_0_n_n 4096 rfl rfl).symm k) = ix2 r k := funext fun a => Fin.ext (by
    match a with
    | ⟨0, _⟩ => exact rhs_low_0 _ _
    | ⟨1, _⟩ => exact (rhs_low_1 _ _).trans hk)
  rw [el, er]

/-! ## The second product: the low-rank activations against `At` -/

theorem lhs_up_0 (i : S256x4096.Idx) (q : dot_S256x16_S16x4096_S256x4096_1_0_0_1_n_n.contr.Idx) :
    (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide),
    dif_pos (show (0 : Fin S256x16.rank) ∈ dot_S256x16_S16x4096_S256x4096_1_0_0_1_n_n.lhsNonContracting by decide)]
  rfl
theorem lhs_up_1 (i : S256x4096.Idx) (q : dot_S256x16_S16x4096_S256x4096_1_0_0_1_n_n.contr.Idx) :
    (dot_S256x16_S16x4096_S256x4096_1_0_0_1_n_n.lhsIdx i q 1).val = (q ⟨0, by decide⟩).val :=
  dot_S256x16_S16x4096_S256x4096_1_0_0_1_n_n.lhsIdx_val_of_single rfl i q
theorem rhs_up_0 (i : S256x4096.Idx) (q : dot_S256x16_S16x4096_S256x4096_1_0_0_1_n_n.contr.Idx) :
    (dot_S256x16_S16x4096_S256x4096_1_0_0_1_n_n.rhsIdx i q 0).val = (q ⟨0, by decide⟩).val :=
  dot_S256x16_S16x4096_S256x4096_1_0_0_1_n_n.rhsIdx_val_of_single rfl i q
theorem rhs_up_1 (i : S256x4096.Idx) (q : dot_S256x16_S16x4096_S256x4096_1_0_0_1_n_n.contr.Idx) :
    (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide),
    dif_pos (show (1 : Fin S16x4096.rank) ∈ dot_S256x16_S16x4096_S256x4096_1_0_0_1_n_n.rhsNonContracting by decide)]
  rfl

/-- `(Y · At)[p, q] = Σ_r Y[p, r] · At[r, q]`. -/
theorem up_apply (Y : FVec Ideal S256x16 .f32) (At : FVec Ideal S16x4096 .f32) (p : Fin 256) (q : Fin 4096) :
    matmul (F := Ideal) dot_S256x16_S16x4096_S256x4096_1_0_0_1_n_n none Y At (constant (F := Ideal) S256x4096 .f32 0x00000000#32) (ix2 p q)
      = ∑ r : Fin 16, Y (ix2 p r) * At (ix2 r q) := by
  simp only [matmul]
  rw [Ideal.matmul_constant_zero_apply,
    ← Equiv.sum_comp (contrEquiv1 dot_S256x16_S16x4096_S256x4096_1_0_0_1_n_n 16 rfl rfl).symm]
  refine Finset.sum_congr rfl fun r _ => ?_
  have hr := contrEquiv1_symm_val dot_S256x16_S16x4096_S256x4096_1_0_0_1_n_n 16 rfl rfl r
  have el : dot_S256x16_S16x4096_S256x4096_1_0_0_1_n_n.lhsIdx (ix2 p q)
      ((contrEquiv1 dot_S256x16_S16x4096_S256x4096_1_0_0_1_n_n 16 rfl rfl).symm r) = ix2 p r := funext fun a => Fin.ext (by
    match a with
    | ⟨0, _⟩ => exact lhs_up_0 _ _
    | ⟨1, _⟩ => exact (lhs_up_1 _ _).trans hr)
  have er : dot_S256x16_S16x4096_S256x4096_1_0_0_1_n_n.rhsIdx (ix2 p q)
      ((contrEquiv1 dot_S256x16_S16x4096_S256x4096_1_0_0_1_n_n 16 rfl rfl).symm r) = ix2 r q := funext fun a => Fin.ext (by
    match a with
    | ⟨0, _⟩ => exact (rhs_up_0 _ _).trans hr
    | ⟨1, _⟩ => exact rhs_up_1 _ _)
  rw [el, er]

/-! ## The stored block -/

/-- THE BODY'S STORE at entry `(0, p, q)` of the output block, from the three loaded blocks. -/
theorem payload_apply (v0 : Vec Ideal S1x256x4096 .f32) (v2 v4 : Vec Ideal S1x16x4096 .f32) (p : Fin 256) (q : Fin 4096) :
    k0_pay1 (F := Ideal) v0 v2 v4 (ix3 (0 : Fin 1) p q)
      = ∑ r : Fin 16, (∑ k : Fin 4096, v0 (ix3 (0 : Fin 1) p k) * v2 (ix3 (0 : Fin 1) r k)) * v4 (ix3 (0 : Fin 1) r q) := by
  unfold k0_pay1
  refine (shapeCast_split_apply _ shapeCasts_S256x4096_S1x256x4096 (0 : Fin 1) p q p (by simp)).trans ?_
  refine (up_apply _ _ p q).trans ?_
  refine Finset.sum_congr rfl fun r _ => ?_
  refine congrArg₂ (· * ·) ((lowRank_apply _ _ p r).trans (Finset.sum_congr rfl fun k _ => congrArg₂ (· * ·)
      (shapeCast_merge_apply v0 shapeCasts_S1x256x4096_S256x4096 (0 : Fin 1) p k p (by simp))
      (shapeCast_merge_apply v2 shapeCasts_S1x16x4096_S16x4096 (0 : Fin 1) r k r (by simp))))
    (shapeCast_merge_apply v4 shapeCasts_S1x16x4096_S16x4096 (0 : Fin 1) r q r (by simp))

end Cert.Lora.Block

end
-- ==== Proof.LoraArray.lean ====
/-
  From the blocks to the whole result array.

  Grid point `t = (b, s)` stages rows `256·s … 256·s + 255` of batch element `b` of `x` (window 0), batch element `b`
  of the two adapter arrays (windows 1 and 2), and writes rows `256·s … 256·s + 255` of batch element `b` of the
  result (window 3). So what point `t` writes back is block `t` of the specification `lora`, the 64 blocks tile the
  result array, and the array ends at `lora` of the argument arrays.
-/
import proofs.«413199_j44933947850967_3_alg».proof.Proof.Gen.KernelIdeal.Value
import proofs.«413199_j44933947850967_3_alg».proof.Proof.LoraWindows
import proofs.«413199_j44933947850967_3_alg».proof.Proof.LoraBlock

noncomputable section

open scoped BigOperators

namespace Cert.Lora.Arr

open Cert.KernelIdeal Cert.KernelIdeal.Gen Cert.KernelIdeal.Value Idealize.ShloMosaic Idealize.ShloMosaic.TcCoe Idealize.SL.Sem
open Idealize.ShloMosaic.ValueIdx Cert.Lora Cert.Lora.Win Cert.Lora.Block
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## The index maps, decided over the 64 grid points -/

/-- Every input window moves with the output window: the token tile has its block indices, the adapter blocks its batch
    index; the output's block indices are a batch element and a row tile. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 8 ∧ win0_3.index t (1 : Fin 3) < 8 ∧ win0_3.index t (2 : Fin 3) = 0 :=
  (by decide +kernel : ∀ t : Fin grid0.N, _)

/-- Every (batch element, row tile) pair is some point's output block. -/
theorem idx_onto : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-! ## The input blocks at a point, as entries of the arrays -/

/-- The token tile at point `t`: row `y 1` of the tile is row `256·s + y 1` of batch element `b`. -/
theorem blkX_apply (c : Dev nD) (t : Fin cfg0.N) (y : S1x256x4096.Idx) (i : S8x2048x4096.Idx)
    (h0 : (i 0).val = win0_3.index t (0 : Fin 3)) (h1 : (i 1).val = win0_3.index t (1 : Fin 3) * 256 + (y 1).val)
    (h2 : (i 2).val = (y 2).val) :
    (iblk m c 0 t : Vec Ideal S1x256x4096 .f32) y = argX m c i := by
  obtain ⟨e0, e1, e2, -⟩ := idx_facts t
  have hy0 : (y 0).val < 1 := (y 0).isLt
  unfold iblk
  rw [View.read_apply]
  show V m c main_arg0 _ = argX m c i
  rw [V_main_arg0]
  show argX m c _ = argX m c i
  congr 1
  funext a
  apply Fin.ext
  match a with
  | ⟨0, _⟩ => show win0_0.index t (0 : Fin 3) * 1 + 1 * (y 0).val = (i 0).val; omega
  | ⟨1, _⟩ => show win0_0.index t (1 : Fin 3) * 256 + 1 * (y 1).val = (i 1).val; omega
  | ⟨2, _⟩ => show win0_0.index t (2 : Fin 3) * 4096 + 1 * (y 2).val = (i 2).val; omega

/-- The `B` block at point `t` is batch element `b` of window 1's array. -/
theorem blkB_apply (c : Dev nD) (t : Fin cfg0.N) (y : S1x16x4096.Idx) (b : Fin 8) (hb : b.val = win0_3.index t (0 : Fin 3)) :
    (iblk m c 1 t : Vec Ideal S1x16x4096 .f32) y = (V m c main_v7 : S8x16x4096.Idx → EReal) (ix3 b (y 1) (y 2)) := by
  obtain ⟨-, -, -, e0, e1, e2, -⟩ := idx_facts t
  have hy0 : (y 0).val < 1 := (y 0).isLt
  unfold iblk
  rw [View.read_apply]
  show (V m c main_v7 : S8x16x4096.Idx → EReal) _ = _
  congr 1
  funext a
  apply Fin.ext
  match a with
  | ⟨0, _⟩ => show win0_1.index t (0 : Fin 3) * 1 + 1 * (y 0).val = b.val; omega
  | ⟨1, _⟩ => show win0_1.index t (1 : Fin 3) * 16 + 1 * (y 1).val = (y 1).val; omega
  | ⟨2, _⟩ => show win0_1.index t (2 : Fin 3) * 4096 + 1 * (y 2).val = (y 2).val; omega

/-- The `A` block at point `t` is batch element `b` of window 2's array. -/
theorem blkA_apply (c : Dev nD) (t : Fin cfg0.N) (y : S1x16x4096.Idx) (b : Fin 8) (hb : b.val = win0_3.index t (0 : Fin 3)) :
    (iblk m c 2 t : Vec Ideal S1x16x4096 .f32) y = (V m c main_v15 : S8x16x4096.Idx → EReal) (ix3 b (y 1) (y 2)) := by
  obtain ⟨-, -, -, -, -, -, e0, e1, e2, -⟩ := idx_facts t
  have hy0 : (y 0).val < 1 := (y 0).isLt
  unfold iblk
  rw [View.read_apply]
  show (V m c main_v15 : S8x16x4096.Idx → EReal) _ = _
  congr 1
  funext a
  apply Fin.ext
  match a with
  | ⟨0, _⟩ => show win0_2.index t (0 : Fin 3) * 1 + 1 * (y 0).val = b.val; omega
  | ⟨1, _⟩ => show win0_2.index t (1 : Fin 3) * 16 + 1 * (y 1).val = (y 1).val; omega
  | ⟨2, _⟩ => show win0_2.index t (2 : Fin 3) * 4096 + 1 * (y 2).val = (y 2).val; omega

/-! ## One stored entry is one entry of the specification -/

/-- The body's store at entry `y` of its block, when the three loaded blocks hold token `(b, n)`'s features and the
    rows of adapter `rowOf id_b`: the specification at `(b, n, y 2)`. -/
theorem payload_eq_loraAt (X : FVec Ideal S8x2048x4096 .f32) (A : FVec Ideal S64x4096x16 .f32) (B : FVec Ideal S64x16x4096 .f32)
    (ids : IVec S8 32) (x0 : Vec Ideal S1x256x4096 .f32) (x1 x2 : Vec Ideal S1x16x4096 .f32)
    (b : Fin 8) (n : Fin 2048) (y : S1x256x4096.Idx)
    (h0 : ∀ k : Fin 4096, x0 (ix3 (0 : Fin 1) (y 1) k) = X (ix3 b n k))
    (h1 : ∀ (r : Fin 16) (k : Fin 4096), x1 (ix3 (0 : Fin 1) r k) = B (ix3 (rowOf (ids (ix1 b))) r k))
    (h2 : ∀ r : Fin 16, x2 (ix3 (0 : Fin 1) r (y 2)) = A (ix3 (rowOf (ids (ix1 b))) (y 2) r)) :
    k0_pay1 (F := Ideal) x0 x1 x2 y = loraAt X A B ids b n (y 2) := by
  have hy : y = ix3 (0 : Fin 1) (y 1) (y 2) := by
    refine (eq_ix3 y).trans ?_
    congr 1
    apply Fin.ext
    show (y 0).val = 0
    have h : (y 0).val < 1 := (y 0).isLt
    omega
  rw [hy]
  refine (payload_apply x0 x1 x2 (y 1) (y 2)).trans ?_
  unfold loraAt
  exact Finset.sum_congr rfl fun r _ => congrArg₂ (· * ·)
    (Finset.sum_congr rfl fun k _ => congrArg₂ (· * ·) (h0 k) (h1 r k)) (h2 r)

/-! ## What a point writes back, the cover, and the array -/

/-- WHAT POINT `t` WRITES BACK is block `t` of the specification of the argument arrays, on non-negative ids. -/
theorem flushed_eq (c : Dev nD) (hids : ∀ b : Fin 8, 0 ≤ (argIds m c (ix1 b)).toInt) (t : Fin cfg0.N) :
    (dats m 0 c).flushed 3 t
      = ((cfg0.win 3).blk t).view.read (Elt Ideal) (lora (argX m c) (argA m c) (argB m c) (argIds m c)) := by
  rw [flushed3]
  unfold out0_3
  rw [View.canon_unit_zero hz3]
  simp only [View.ld_unit_zero (S := S1x256x4096) hz3, View.ld_unit_zero (S := S1x16x4096) hz3]
  obtain ⟨-, -, -, -, -, -, -, -, -, lt0, lt1, e32⟩ := idx_facts t
  funext j
  have hj0 : (j 0).val < 1 := (j 0).isLt
  have hj1 : (j 1).val < 256 := (j 1).isLt
  have hj2 : (j 2).val < 4096 := (j 2).isLt
  show k0_pay1 (F := Ideal) (iblk m c 0 t) (iblk m c 1 t) (iblk m c 2 t) j
    = lora (argX m c) (argA m c) (argB m c) (argIds m c) (((cfg0.win 3).blk t).view.emb j)
  have e : ((cfg0.win 3).blk t).view.emb j
      = ix3 (⟨win0_3.index t (0 : Fin 3), lt0⟩ : Fin 8) (⟨win0_3.index t (1 : Fin 3) * 256 + (j 1).val, by omega⟩ : Fin 2048)
          (⟨(j 2).val, hj2⟩ : Fin 4096) := funext fun a => Fin.ext (by
    match a with
    | ⟨0, _⟩ => show win0_3.index t (0 : Fin 3) * 1 + 1 * (j 0).val = win0_3.index t (0 : Fin 3); omega
    | ⟨1, _⟩ => show win0_3.index t (1 : Fin 3) * 256 + 1 * (j 1).val = win0_3.index t (1 : Fin 3) * 256 + (j 1).val; omega
    | ⟨2, _⟩ => show win0_3.index t (2 : Fin 3) * 4096 + 1 * (j 2).val = (j 2).val; omega)
  rw [e, lora_apply]
  refine payload_eq_loraAt (argX m c) (argA m c) (argB m c) (argIds m c) _ _ _ _ _ j ?_ ?_ ?_
  · intro k
    exact blkX_apply m c t _ _ rfl rfl rfl
  · intro r k
    exact (blkB_apply m c t _ _ rfl).trans (winB_apply m c hids _ r k)
  · intro r
    exact (blkA_apply m c t _ _ rfl).trans (winA_apply m c hids _ r _)

/-- An index of the result array is in point `t`'s block iff each coordinate is in the block's range on its axis. -/
theorem mem_blk (t : Fin cfg0.N) (i : S8x2048x4096.Idx) :
    i ∈ ((cfg0.win 3).blk t).view.set
      ↔ ∀ a : Fin 3, win0_3.index t a * S1x256x4096.size a ≤ (i a).val ∧ (i a).val < win0_3.index t a * S1x256x4096.size a + S1x256x4096.size a := by
  show i ∈ ((View.whole main_v16).slice (win0_3.rect t)).set ↔ _
  rw [View.set_slice_whole, Rect.mem_set_unit]
  exact Iff.rfl

/-- Every index of the result array is in some point's block: the point of its batch element and row tile. -/
theorem cover (i : S8x2048x4096.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 4096 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- THE RESULT ARRAY after the run is the specification of the argument arrays, on non-negative ids. -/
theorem final (c : Dev nD) (hids : ∀ b : Fin 8, 0 ≤ (argIds m c (ix1 b)).toInt) :
    (dats m 0 c).arrAt 3 cfg0.N = lora (argX m c) (argA m c) (argB m c) (argIds m c) :=
  (dats m 0 c).arrAt_eq_of_cover 3 (lora (argX m c) (argA m c) (argB m c) (argIds m c))
    (fun t _ => flushed_eq m c hids t) cover

/-- The kernel's run re-posted: the result array at the specification, the arguments unchanged. -/
theorem run (hids : ∀ (c : Dev nD) (b : Fin 8), 0 ≤ (argIds m c (ix1 b)).toInt) :
    θ_run defs (onTc (τ := τ) (main (F := Ideal))) ⟨m, fun _ => 0, ρ⟩ fun r => ∀ c : Dev nD,
      r.2.mem ((c : Thread nD τ).loc main_v16) = lora (argX m c) (argA m c) (argB m c) (argIds m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hids c)), (h c).2⟩) (run_blocks m ρ)

end Cert.Lora.Arr

end
-- ==== Proof.LoraReference.lean ====
/-
  The reference's result is the specification.

  The reference wraps a negative id (`id + 64`), gathers the adapter's rows of `B` and of `A`, contracts the token
  with the `B` rows over the 4096 input features, contracts the result with the `A` rows over the 16 ranks, and
  multiplies by the scaling `1.0`. On non-negative ids the wrap does nothing, the gather's clamp gives the row
  `rowOf id`, both contractions are the plain sums of products, and `y · 1 = y`.
-/
import proofs.«413199_j44933947850967_3_alg».proof.Proof.Gen.ReferenceIdeal.Read
import proofs.«413199_j44933947850967_3_alg».proof.Proof.LoraSpec
import proofs.«413199_j44933947850967_3_alg».proof.Proof.LibGatherRows
import Idealize.ShloMosaic.Lib.IdealHost

noncomputable section

open scoped BigOperators

namespace Cert.Lora.Ref

open Cert.ReferenceIdeal Cert.ReferenceIdeal.Gen Cert.ReferenceIdeal.Read Idealize.ShloMosaic Idealize.ShloMosaic.ValueIdx Idealize.ShloMosaic.GatherRows Cert.Lora

variable (x3 : (⟨S8, .i32⟩ : BufTy).Contents (Elt Ideal))

/-- The start index the `B` gather reads for batch element `p` is the id itself, when it is not negative. -/
theorem startB_eq (h : ∀ b : Fin 8, 0 ≤ (x3 (ix1 b)).toInt) (p : Fin 8) :
    val_main_v5 (F := Ideal) x3 (ix2 p (0 : Fin 1)) = x3 (ix1 p) := by
  have e : idx_main_v5 (ix2 p (0 : Fin 1)) = ix1 p := funext fun a => by match a with | ⟨0, _⟩ => rfl
  rw [val_main_v5_apply, e, val_main_v4_apply, val_main_v1_apply, val_main_v3_apply, val_main_v0_apply, val_main_v2_apply,
    val_main_c_apply, val_main_c_0_apply]
  exact wrap_of_nonneg _ (h p)

/-- The same for the `A` gather. -/
theorem startA_eq (h : ∀ b : Fin 8, 0 ≤ (x3 (ix1 b)).toInt) (p : Fin 8) :
    val_main_v12 (F := Ideal) x3 (ix2 p (0 : Fin 1)) = x3 (ix1 p) := by
  have e : idx_main_v12 (ix2 p (0 : Fin 1)) = ix1 p := funext fun a => by match a with | ⟨0, _⟩ => rfl
  rw [val_main_v12_apply, e, val_main_v11_apply, val_main_v8_apply, val_main_v10_apply, val_main_v7_apply, val_main_v9_apply,
    val_main_c_1_apply, val_main_c_2_apply]
  exact wrap_of_nonneg _ (h p)

/-- The gathered `B` rows: batch element `p` holds the rows of adapter `rowOf id`. -/
theorem gatheredB_apply (x2 : (⟨S64x16x4096, .f32⟩ : BufTy).Contents (Elt Ideal))
    (h : ∀ b : Fin 8, 0 ≤ (x3 (ix1 b)).toInt) (p : Fin 8) (r : Fin 16) (k : Fin 4096) :
    val_main_v6 (F := Ideal) x2 x3 (ix3 p r k) = x2 (ix3 (rowOf (x3 (ix1 p))) r k) := by
  unfold val_main_v6
  refine (gather_rows_apply (by decide) gather_S64x16x4096_S8x1_S8x16x4096_12_0_n_n_0_1_1164096_wf x2
    (val_main_v5 (F := Ideal) x3) p r k).trans ?_
  simp only [startB_eq x3 h p]
  rfl

/-- The gathered `A` rows likewise. -/
theorem gatheredA_apply (x1 : (⟨S64x4096x16, .f32⟩ : BufTy).Contents (Elt Ideal))
    (h : ∀ b : Fin 8, 0 ≤ (x3 (ix1 b)).toInt) (p : Fin 8) (o : Fin 4096) (r : Fin 16) :
    val_main_v13 (F := Ideal) x1 x3 (ix3 p o r) = x1 (ix3 (rowOf (x3 (ix1 p))) o r) := by
  unfold val_main_v13
  refine (gather_rows_apply (by decide) gather_S64x4096x16_S8x1_S8x4096x16_12_0_n_n_0_1_1409616_wf x1
    (val_main_v12 (F := Ideal) x3) p o r).trans ?_
  simp only [startA_eq x3 h p]
  rfl

/-- THE REFERENCE'S RESULT, on non-negative ids, is the specification: index by index the two nested sums, times one. -/
theorem result_eq (x0 : (⟨S8x2048x4096, .f32⟩ : BufTy).Contents (Elt Ideal)) (x1 : (⟨S64x4096x16, .f32⟩ : BufTy).Contents (Elt Ideal))
    (x2 : (⟨S64x16x4096, .f32⟩ : BufTy).Contents (Elt Ideal)) (h : ∀ b : Fin 8, 0 ≤ (x3 (ix1 b)).toInt) :
    val_main_v17 (F := Ideal) x0 x1 x2 x3 = lora x0 x1 x2 x3 := by
  funext i
  obtain ⟨b, n, o, rfl⟩ : ∃ (b : Fin 8) (n : Fin 2048) (o : Fin 4096), i = ix3 b n o := ⟨i 0, i 1, i 2, eq_ix3 i⟩
  rw [val_main_v17_apply, val_main_v15_apply, val_main_v16_apply, val_main_cst_apply, lora_apply]
  show (∑ k : Fin 16, _) * Ideal.ofBits .f32 0x3F800000#32 = _
  rw [Ideal.ofBits_one_f32, mul_one]
  unfold loraAt
  refine Finset.sum_congr rfl fun r _ => ?_
  have el : lidx_main_v15 (ix3 b n o) r = ix3 b n r :=
    funext fun a => Fin.ext (by match a with | ⟨0, _⟩ => rfl | ⟨1, _⟩ => rfl | ⟨2, _⟩ => rfl)
  have er : ridx_main_v15 (ix3 b n o) r = ix3 b o r :=
    funext fun a => Fin.ext (by match a with | ⟨0, _⟩ => rfl | ⟨1, _⟩ => rfl | ⟨2, _⟩ => rfl)
  rw [el, er, val_main_v14_apply, gatheredA_apply x3 x1 h b o r]
  congr 1
  refine Finset.sum_congr rfl fun k _ => ?_
  have el' : lidx_main_v14 (ix3 b n r) k = ix3 b n k :=
    funext fun a => Fin.ext (by match a with | ⟨0, _⟩ => rfl | ⟨1, _⟩ => rfl | ⟨2, _⟩ => rfl)
  have er' : ridx_main_v14 (ix3 b n r) k = ix3 b r k :=
    funext fun a => Fin.ext (by match a with | ⟨0, _⟩ => rfl | ⟨1, _⟩ => rfl | ⟨2, _⟩ => rfl)
  rw [el', er', gatheredB_apply x3 x2 h b r k]

end Cert.Lora.Ref

end
-- ==== Proof.LoraPre.lean ====
/-
  The precondition, read back: every adapter id is non-negative.

  The printed precondition is the conjunction of the three finiteness tests and of `all (ids ≥ 0)`: an `and`-reduction,
  over the eight ids, of the signed comparison of each id with zero. If the whole is one, its last conjunct is one, so
  every compared element is one, which says `0 ≤ id` as signed integers.
-/
import proofs.«413199_j44933947850967_3_alg».proof.Pre_finite_inputs
import Idealize.ShloMosaic.Lib.ReduceAll
import Idealize.ShloMosaic.Lib.ValueIdx

noncomputable section

namespace Cert.Lora.Pre

open Idealize.ShloMosaic Idealize.ShloMosaic.ValueIdx Cert.Pre_finite_inputs

instance : Subsingleton S_.Idx := ⟨fun _ _ => funext fun d => d.elim0⟩

/-- Under the precondition every id is non-negative. -/
theorem ids_nonneg {F : FTy → Type} [FloatOps F] [Cert.Pre_finite_inputs.Facts]
    (x0 : FVec F S8x2048x4096 .f32) (x1 : FVec F S64x4096x16 .f32) (x2 : FVec F S64x16x4096 .f32) (x3 : IVec S8 32)
    (h : Cert.Pre_finite_inputs.fn (F := F) x0 x1 x2 x3 = fun _ => 1#1) (b : Fin 8) : 0 ≤ (x3 (ix1 b)).toInt := by
  have h0 := congrFun h ix0
  dsimp only [Cert.Pre_finite_inputs.fn, Cert.Pre_finite_inputs.fn_part1] at h0
  obtain ⟨-, h16⟩ := IntOp.andi_eq_one.1 h0
  have hb := Host.reduce_andi_all _ _ _ _ _ h16 (ix1 b)
  have hb' : IntOp.cmpi .sge (x3 (ix1 b)) 0#32 = 1#1 := hb
  have hge := IntOp.cmpi_sge.1 hb'
  rwa [show (0#32 : BitVec 32).toInt = 0 from by decide] at hge

end Cert.Lora.Pre

end
-- ==== Proof.lean ====
/-
  A batched low-rank adapter: for each batch element `b` with adapter id `id_b`,
      out[b, n, o] = Σ_r (Σ_k x[b, n, k] · B[row_b, r, k]) · A[row_b, o, r],      row_b = min id_b 63,
  over f32[8, 2048, 4096] tokens, 64 adapters of rank 16, and eight int32 ids assumed non-negative.

  The reference gathers the adapter's rows of `B` and `A` (a negative id would count from the end; the gather clamps an
  id past the end to the last adapter), contracts over the 4096 input features, then over the 16 ranks, and multiplies by
  the scaling 1. The kernel clips the ids into [0, 63] on the host, gathers the same rows (swapping the last two axes of
  the `A` rows), and on a grid of 8 × 8 points multiplies a 256-token tile by the `B` rows and the product by the `A`
  rows, each product into a zero accumulator. Clipping and clamping agree on every non-negative id, and they disagree
  with numpy's wrap on a negative one, which is what the added precondition excludes. At the ideal values both programs
  nest the two sums the same way, so the results are equal term by term; the only law used is `y · 1 = y`.

  The frames are the generated ones (the reference's is its generated run with the result dropped); nothing was
  rewritten by the idealization, so `preserves` is trivial; `algebraic` sets the kernel's result array (the 64 blocks
  assembled, `Cert.Lora.Arr.run`) beside the reference's run read operation by operation (`Cert.Lora.Ref.result_eq`),
  with the ids' sign read out of the precondition (`Cert.Lora.Pre.ids_nonneg`).
-/
import proofs.«413199_j44933947850967_3_alg».proof.Defs
import proofs.«413199_j44933947850967_3_alg».proof.Proof.Gen.Kernel
import proofs.«413199_j44933947850967_3_alg».proof.Proof.Gen.Kernel.Skeleton
import proofs.«413199_j44933947850967_3_alg».proof.Proof.Gen.Kernel.Launch
import proofs.«413199_j44933947850967_3_alg».proof.Proof.Gen.Kernel.Points
import proofs.«413199_j44933947850967_3_alg».proof.Proof.Gen.Kernel.Frame
import proofs.«413199_j44933947850967_3_alg».proof.Proof.Gen.KernelIdeal
import proofs.«413199_j44933947850967_3_alg».proof.Proof.Gen.KernelIdeal.Skeleton
import proofs.«413199_j44933947850967_3_alg».proof.Proof.Gen.KernelIdeal.Launch
import proofs.«413199_j44933947850967_3_alg».proof.Proof.Gen.KernelIdeal.Points
import proofs.«413199_j44933947850967_3_alg».proof.Proof.Gen.KernelIdeal.Frame
import proofs.«413199_j44933947850967_3_alg».proof.Proof.Gen.ReferenceIdeal
import proofs.«413199_j44933947850967_3_alg».proof.Proof.Gen.Pre_finite_inputs
import proofs.«413199_j44933947850967_3_alg».proof.Proof.Gen.KernelIdeal.Value
import proofs.«413199_j44933947850967_3_alg».proof.Proof.Gen.ReferenceIdeal.Run
import proofs.«413199_j44933947850967_3_alg».proof.Proof.Gen.ReferenceIdeal.Read
import proofs.«413199_j44933947850967_3_alg».proof.Proof.LoraArray
import proofs.«413199_j44933947850967_3_alg».proof.Proof.LoraReference
import proofs.«413199_j44933947850967_3_alg».proof.Proof.LoraPre
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with non-negative ids, both programs end with the result array at the
    specification `Cert.Lora.lora` of the arguments. -/
theorem algebraic : Cert.algebraic_KernelIdeal_ReferenceIdeal := by
  intro m ρ m' ρ' hpre hagree
  have hids : ∀ (c : Dev Cert.KernelIdeal.nD) (b : Fin 8), 0 ≤ (Cert.Lora.Win.argIds m c (ix1 b)).toInt :=
    fun c b => Cert.Lora.Pre.ids_nonneg _ _ _ _ (hpre c) b
  refine ⟨_, Cert.Lora.Arr.run m ρ hids, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  exact Cert.Lora.Ref.result_eq _ _ _ _ (hids c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
